-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024x1024 .f32) (main_arg8 : FVec F S1024 .f32) (main_arg9 : FVec F S1024x1024 .f32) (main_arg10 : FVec F S1024x1024 .f32) (main_arg11 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024x1024 .f32) (main_arg5 : FVec F S1024 .f32) (main_arg6 : FVec F S1024x1024 .f32) (main_arg7 : FVec F S1024x1024 .f32) (main_arg8 : FVec F S1024 .f32) (main_arg9 : FVec F S1024x1024 .f32) (main_arg10 : FVec F S1024x1024 .f32) (main_arg11 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 25
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S4096x1024, .bf16⟩
  | .hbm, ⟨13, _⟩ => ⟨S4096x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .bf16 = 32 ∨ (Rect.block (s := S4096x1024) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S4096x1024.size a
  hwx0_12 : ∀ i : grid0.Coords, EltTy.bits .f32 = 32 ∨ (Rect.block (s := S4096x1024) S256x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1024.size a ≤ S4096x1024.size a
  hwx0_13 : ∀ i : grid0.Coords, EltTy.bits .f32 = 32 ∨ (Rect.block (s := S4096x1024) S256x1024.size (cc0_transform_13 i) (hinb0_13 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11_0) S256x1024.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v11_1) S256x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1024_S1024x1024_S4096x1024_1_0_0_1_n_n_wf : DotDims.WF S4096x1024 S1024x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.LibPlainDotSum.lean ====
/-
  A matrix product read at an entry, as the textbook sum.

  A product of an `M × K` by a `K × N` matrix whose dimension numbers contract the left operand's columns with the
  right operand's rows, keep the left rows and the right columns in that order, and have no batch axis. At result
  entry `(i, j)` and contraction position `k` the left operand is read at `(i, k)` and the right at `(k, j)`, and the
  one-axis contraction index set is its coordinate range `Fin K`; so the sum over the contraction index is
  `∑ q : Fin K, A (i, q) * B (q, j)`. Stated for ANY dimension-number record with those lists and for operands of any
  two float formats, at the extended reals: for the accumulating block product into a zero accumulator and for the
  host's product. Nothing here depends on a particular program.
-/
import Idealize.ShloMosaic.PureOps.Ideal
import Idealize.ShloMosaic.PureOps.Ideal.Laws
import Idealize.ShloMosaic.Lib.ValueIdx

noncomputable section

open scoped BigOperators

namespace Cert.LibPlainDotSum

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent `K`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry `(i, j)`: at contraction position `k` with coordinate `q` the
    left operand is read at `(i, q)` and the right at `(q, j)`, and the positions correspond one to one to the
    coordinates `q : Fin K`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)

/-- A block product into the zero accumulator, read at `(i, j)`, is that sum. -/
theorem matmul_zero_apply {φ₁ φ₂ : FTy} (prec : Option ContractPrecision) (l : FVec Ideal (⟨2, ![M, K]⟩ : Shape) φ₁)
    (r : FVec Ideal (⟨2, ![K, N]⟩ : Shape) φ₂) (i : Fin M) (j : Fin N) :
    matmul d prec l r (constant (⟨2, ![M, N]⟩ : Shape) .f32 0x00000000#32) (ix2 i j)
      = ∑ q : Fin K, l (ix2 i q) * r (ix2 q j) := by
  show FloatOps.matmul d prec l r (constant (⟨2, ![M, N]⟩ : Shape) .f32 0x00000000#32) (ix2 i j) = _
  rw [Ideal.matmul_constant_zero_apply]
  exact plain_sum d hlc hrc hln hrn hlb hrb l r i j

/-- The host's product, read at `(i, j)`, is that sum. -/
theorem hostDot_apply {φ₁ φ₂ : FTy} (prec : Option ContractPrecision) (l : FVec Ideal (⟨2, ![M, K]⟩ : Shape) φ₁)
    (r : FVec Ideal (⟨2, ![K, N]⟩ : Shape) φ₂) (i : Fin M) (j : Fin N) :
    Host.dotGeneral d prec l r (ix2 i j) = ∑ q : Fin K, l (ix2 i q) * r (ix2 q j) := by
  simp only [Host.dotGeneral]
  rw [Ideal.dotGeneral_apply]
  exact plain_sum d hlc hrc hln hrn hlb hrb l r i j

end Cert.LibPlainDotSum

end
-- ==== Proof.LstmSpec.lean ====
/-
  One step of the recurrent cell, as a function of the argument arrays, entry by entry.

  The step reads a batch of rows: an input row `x`, the previous hidden row `h` and the previous cell row `c`,
  each of width 1024. Three gates share one shape of pre-activation: at row `r` and column `j`

      pre(W, U, b)(r, j) = (∑ q, x(r, q) · W(q, j)) + (∑ q, h(r, q) · U(q, j)) + b(j).

  With `σ` the logistic function, the forget gate is `f = σ(pre_f)`, the input gate `i = σ(pre_i)` and the output
  gate `o = σ(pre_o)`. The candidate cell value reuses the forget gate's pre-activation, so it equals `f`, and the
  new cell entry is `f · c + f · i`, which is `f · (c + i)`; the new hidden entry is `o · tanh` of the new cell entry.

  Everything is over the extended reals. The one law used, `f · c + f · i = f · (c + i)`, is not true of arbitrary
  extended reals, but `σ` takes values in `[0, 1]` on all of them (`σ ⊥ = 0`, `σ ⊤ = 1`), and a nonnegative factor that
  is not `⊤` distributes over every sum.

  The number of rows is a parameter: the same function describes the whole batch and a block of its rows, and an
  entry depends only on its own row of `x`, `h`, `c` (`gatePre_congr`, `cellAt_congr`, `hiddenAt_congr`).
-/
import Idealize.ShloMosaic.PureOps.Ideal
import Idealize.ShloMosaic.Lib.ValueIdx

noncomputable section

open scoped BigOperators

namespace Cert.Lstm

open Idealize.ShloMosaic Idealize.ShloMosaic.ValueIdx

/-- A matrix of extended reals with `a` rows and `b` columns. -/
abbrev Mat (a b : Nat) : Type := (⟨2, ![a, b]⟩ : Shape).Idx → EReal

/-- A vector of length 1024 as a function of the position. -/
def vecOf (b : (⟨1, ![1024]⟩ : Shape).Idx → EReal) : Fin 1024 → EReal := fun j => b (ix1 j)

/-! ## The logistic function takes values in `[0, 1]` -/

theorem logistic_nonneg (x : EReal) : 0 ≤ Ideal.logistic x := by
  induction x using EReal.rec with
  | bot => rw [Ideal.logistic_bot]
  | coe r =>
    rw [Ideal.logistic_coe]
    exact EReal.coe_nonneg.mpr (inv_nonneg.mpr (by positivity))
  | top => rw [Ideal.logistic_top]; exact zero_le_one

theorem logistic_ne_top (x : EReal) : Ideal.logistic x ≠ ⊤ := by
  induction x using EReal.rec with
  | bot => rw [Ideal.logistic_bot]; exact EReal.zero_ne_top
  | coe r => rw [Ideal.logistic_coe]; exact EReal.coe_ne_top _
  | top => rw [Ideal.logistic_top, ← EReal.coe_one]; exact EReal.coe_ne_top 1

/-- A logistic factor distributes over a sum of any two extended reals. -/
theorem logistic_mul_add (x a b : EReal) :
    Ideal.logistic x * a + Ideal.logistic x * b = Ideal.logistic x * (a + b) :=
  (EReal.left_distrib_of_nonneg_of_ne_top (logistic_nonneg x) (logistic_ne_top x) a b).symm

/-! ## The step -/

variable {R : Nat}

/-- A gate's pre-activation at row `r`, column `j`. -/
def gatePre (X H : Mat R 1024) (W U : Mat 1024 1024) (b : Fin 1024 → EReal) (r : Fin R) (j : Fin 1024) : EReal :=
  (∑ q : Fin 1024, X (ix2 r q) * W (ix2 q j)) + (∑ q : Fin 1024, H (ix2 r q) * U (ix2 q j)) + b j

/-- The new cell entry: the forget gate times the sum of the old cell entry and the input gate. -/
def cellAt (X H C : Mat R 1024) (Wf Uf : Mat 1024 1024) (bf : Fin 1024 → EReal) (Wi Ui : Mat 1024 1024)
    (bi : Fin 1024 → EReal) (r : Fin R) (j : Fin 1024) : EReal :=
  Ideal.logistic (gatePre X H Wf Uf bf r j) * (C (ix2 r j) + Ideal.logistic (gatePre X H Wi Ui bi r j))

/-- The new hidden entry: the output gate times `tanh` of the new cell entry. -/
def hiddenAt (X H C : Mat R 1024) (Wf Uf : Mat 1024 1024) (bf : Fin 1024 → EReal) (Wi Ui : Mat 1024 1024)
    (bi : Fin 1024 → EReal) (Wo Uo : Mat 1024 1024) (bo : Fin 1024 → EReal) (r : Fin R) (j : Fin 1024) : EReal :=
  Ideal.logistic (gatePre X H Wo Uo bo r j) * Ideal.tanh (cellAt X H C Wf Uf bf Wi Ui bi r j)

/-- The new cell array. -/
def cellArr (X H C : Mat R 1024) (Wf Uf : Mat 1024 1024) (bf : Fin 1024 → EReal) (Wi Ui : Mat 1024 1024)
    (bi : Fin 1024 → EReal) : Mat R 1024 :=
  fun y => cellAt X H C Wf Uf bf Wi Ui bi (y 0) (y 1)

/-- The new hidden array. -/
def hiddenArr (X H C : Mat R 1024) (Wf Uf : Mat 1024 1024) (bf : Fin 1024 → EReal) (Wi Ui : Mat 1024 1024)
    (bi : Fin 1024 → EReal) (Wo Uo : Mat 1024 1024) (bo : Fin 1024 → EReal) : Mat R 1024 :=
  fun y => hiddenAt X H C Wf Uf bf Wi Ui bi Wo Uo bo (y 0) (y 1)

/-- The cell entry written the other way: the forget gate times the old cell entry, plus the candidate (which
    is the forget gate again) times the input gate. -/
theorem cellAt_eq_sum (X H C : Mat R 1024) (Wf Uf : Mat 1024 1024) (bf : Fin 1024 → EReal) (Wi Ui : Mat 1024 1024)
    (bi : Fin 1024 → EReal) (r : Fin R) (j : Fin 1024) :
    Ideal.logistic (gatePre X H Wf Uf bf r j) * C (ix2 r j)
        + Ideal.logistic (gatePre X H Wf Uf bf r j) * Ideal.logistic (gatePre X H Wi Ui bi r j)
      = cellAt X H C Wf Uf bf Wi Ui bi r j :=
  logistic_mul_add _ _ _

/-! ## An entry depends only on its own row -/

variable {R' : Nat}

theorem gatePre_congr (X H : Mat R 1024) (X' H' : Mat R' 1024) (W U : Mat 1024 1024) (b : Fin 1024 → EReal)
    (r : Fin R) (r' : Fin R') (hX : ∀ q, X (ix2 r q) = X' (ix2 r' q)) (hH : ∀ q, H (ix2 r q) = H' (ix2 r' q))
    (j : Fin 1024) : gatePre X H W U b r j = gatePre X' H' W U b r' j := by
  unfold gatePre
  simp only [hX, hH]

theorem cellAt_congr (X H C : Mat R 1024) (X' H' C' : Mat R' 1024) (Wf Uf : Mat 1024 1024) (bf : Fin 1024 → EReal)
    (Wi Ui : Mat 1024 1024) (bi : Fin 1024 → EReal) (r : Fin R) (r' : Fin R')
    (hX : ∀ q, X (ix2 r q) = X' (ix2 r' q)) (hH : ∀ q, H (ix2 r q) = H' (ix2 r' q))
    (hC : ∀ q, C (ix2 r q) = C' (ix2 r' q)) (j : Fin 1024) :
    cellAt X H C Wf Uf bf Wi Ui bi r j = cellAt X' H' C' Wf Uf bf Wi Ui bi r' j := by
  unfold cellAt
  rw [gatePre_congr X H X' H' Wf Uf bf r r' hX hH, gatePre_congr X H X' H' Wi Ui bi r r' hX hH, hC]

theorem hiddenAt_congr (X H C : Mat R 1024) (X' H' C' : Mat R' 1024) (Wf Uf : Mat 1024 1024) (bf : Fin 1024 → EReal)
    (Wi Ui : Mat 1024 1024) (bi : Fin 1024 → EReal) (Wo Uo : Mat 1024 1024) (bo : Fin 1024 → EReal)
    (r : Fin R) (r' : Fin R')
    (hX : ∀ q, X (ix2 r q) = X' (ix2 r' q)) (hH : ∀ q, H (ix2 r q) = H' (ix2 r' q))
    (hC : ∀ q, C (ix2 r q) = C' (ix2 r' q)) (j : Fin 1024) :
    hiddenAt X H C Wf Uf bf Wi Ui bi Wo Uo bo r j = hiddenAt X' H' C' Wf Uf bf Wi Ui bi Wo Uo bo r' j := by
  unfold hiddenAt
  rw [gatePre_congr X H X' H' Wo Uo bo r r' hX hH, cellAt_congr X H C X' H' C' Wf Uf bf Wi Ui bi r r' hX hH hC]

end Cert.Lstm

end
-- ==== Proof.LstmBlock.lean ====
/-
  What the kernel body leaves in its two output blocks, entry by entry.

  At a grid point the body holds a block of 256 rows of the input, of the previous hidden state and of the previous
  cell state, the six weight matrices whole, and the three biases as one-row matrices. Each gate's pre-activation is
  two block products into a zero accumulator, added, plus the bias row broadcast down the block's rows: read at
  row `p`, column `j` that is `gatePre` of the block. The logistic function, `tanh`, sums and products act entry by
  entry, and the layout casts between equal shapes are the identity. So the block stored to the cell output is
  `cellAt` of the block's operands and the block stored to the hidden output is `hiddenAt` of them.
-/
import proofs.«126118_j43894565765582_1_alg».proof.Proof.Gen.KernelIdeal.Frame
import proofs.«126118_j43894565765582_1_alg».proof.Proof.LibPlainDotSum
import proofs.«126118_j43894565765582_1_alg».proof.Proof.LstmSpec
import Idealize.ShloMosaic.Lib.ValueLayout
import Idealize.ShloMosaic.Lib.Pipeline.Value

noncomputable section

open scoped BigOperators

namespace Cert.Lstm.Block

open Cert.KernelIdeal Cert.KernelIdeal.Gen Idealize.ShloMosaic Idealize.ShloMosaic.ValueIdx Cert.Lstm

/-- A one-row matrix as a function of the column. -/
def rowOf (b : Vec Ideal S1x1024 .f32) : Fin 1024 → EReal := fun j => b (ix2 (0 : Fin 1) j)

/-- A block product into the zero accumulator, at row `p`, column `j`: the sum over the shared axis. -/
theorem dot_apply (l : FVec Ideal S256x1024 .bf16) (r : FVec Ideal S1024x1024 .bf16) (p : Fin 256) (j : Fin 1024) :
    matmul dot_S256x1024_S1024x1024_S256x1024_1_0_0_1_n_n none l r (constant S256x1024 .f32 0x00000000#32) (ix2 p j)
      = ∑ q : Fin 1024, l (ix2 p q) * r (ix2 q j) :=
  Cert.LibPlainDotSum.matmul_zero_apply dot_S256x1024_S1024x1024_S256x1024_1_0_0_1_n_n rfl rfl rfl rfl rfl rfl none l r p j

/-- A bias row broadcast down the block's rows, at row `p`, column `j`: the row's entry `j`. -/
theorem bias_apply (b : FVec Ideal S1x1024 .f32) (p : Fin 256) (j : Fin 1024) :
    broadcastTo S256x1024 b broadcasts_S1x1024_S256x1024 (ix2 p j) = rowOf b j :=
  broadcastTo_1b_ab_apply b broadcasts_S1x1024_S256x1024 p j

/-- Two block products added, plus a broadcast bias row: a gate's pre-activation. -/
theorem gate_apply (x h : FVec Ideal S256x1024 .bf16) (w u : FVec Ideal S1024x1024 .bf16) (b : FVec Ideal S1x1024 .f32)
    (p : Fin 256) (j : Fin 1024) :
    addf (addf (matmul dot_S256x1024_S1024x1024_S256x1024_1_0_0_1_n_n none x w (constant S256x1024 .f32 0x00000000#32))
        (matmul dot_S256x1024_S1024x1024_S256x1024_1_0_0_1_n_n none h u (constant S256x1024 .f32 0x00000000#32)))
      (broadcastTo S256x1024 b broadcasts_S1x1024_S256x1024) (ix2 p j)
      = gatePre x h w u (rowOf b) p j := by
  rw [addf_apply, addf_apply, dot_apply, dot_apply, bias_apply]
  rfl

/-- The forget gate's pre-activation, as the body computes it. -/
theorem pay9_apply (x h : Vec Ideal S256x1024 .bf16) (w u : Vec Ideal S1024x1024 .bf16) (b : Vec Ideal S1x1024 .f32)
    (p : Fin 256) (j : Fin 1024) :
    k0_pay9 (F := Ideal) x h w u b (ix2 p j) = gatePre x h w u (rowOf b) p j := by
  unfold k0_pay9 k0_pay3 k0_pay4
  simp only [shapeCast_self]
  exact gate_apply x h w u b p j

/-- The two block products of the input gate, added (its bias is added later). -/
theorem pay10_apply (x h : Vec Ideal S256x1024 .bf16) (w u : Vec Ideal S1024x1024 .bf16) (p : Fin 256) (j : Fin 1024) :
    k0_pay10 (F := Ideal) x h w u (ix2 p j)
      = (∑ q : Fin 1024, x (ix2 p q) * w (ix2 q j)) + (∑ q : Fin 1024, h (ix2 p q) * u (ix2 q j)) := by
  unfold k0_pay10 k0_pay3 k0_pay4
  simp only [shapeCast_self]
  rw [addf_apply, dot_apply, dot_apply]

/-- THE CELL BLOCK: what the body stores to the cell output, at row `p`, column `j`. -/
theorem cell_pay_apply (x h : Vec Ideal S256x1024 .bf16) (c : Vec Ideal S256x1024 .f32)
    (wf uf : Vec Ideal S1024x1024 .bf16) (bf : Vec Ideal S1x1024 .f32)
    (wi ui : Vec Ideal S1024x1024 .bf16) (bi : Vec Ideal S1x1024 .f32) (p : Fin 256) (j : Fin 1024) :
    k0_pay1 (F := Ideal) c (k0_pay5 bi) (k0_pay9 x h wf uf bf) (k0_pay10 x h wi ui) (ix2 p j)
      = cellAt x h c wf uf (rowOf bf) wi ui (rowOf bi) p j := by
  unfold k0_pay1 k0_pay5
  simp only [shapeCast_self]
  show Ideal.logistic (k0_pay9 (F := Ideal) x h wf uf bf (ix2 p j))
      * (c (ix2 p j) + Ideal.logistic (k0_pay10 (F := Ideal) x h wi ui (ix2 p j)
          + broadcastTo S256x1024 bi broadcasts_S1x1024_S256x1024 (ix2 p j))) = _
  rw [pay9_apply, pay10_apply, bias_apply]
  rfl

/-- THE HIDDEN BLOCK: what the body stores to the hidden output, at row `p`, column `j`. -/
theorem hidden_pay_apply (x h : Vec Ideal S256x1024 .bf16) (c : Vec Ideal S256x1024 .f32)
    (wf uf : Vec Ideal S1024x1024 .bf16) (bf : Vec Ideal S1x1024 .f32)
    (wi ui : Vec Ideal S1024x1024 .bf16) (bi : Vec Ideal S1x1024 .f32)
    (wo uo : Vec Ideal S1024x1024 .bf16) (bo : Vec Ideal S1x1024 .f32) (p : Fin 256) (j : Fin 1024) :
    k0_pay2 (F := Ideal) (k0_pay3 x) (k0_pay4 h) c (k0_pay5 bi) (k0_pay6 wo) (k0_pay7 uo) (k0_pay8 bo)
        (k0_pay9 x h wf uf bf) (k0_pay10 x h wi ui) (ix2 p j)
      = hiddenAt x h c wf uf (rowOf bf) wi ui (rowOf bi) wo uo (rowOf bo) p j := by
  unfold k0_pay2 k0_pay3 k0_pay4 k0_pay6 k0_pay7 k0_pay8
  simp only [shapeCast_self]
  show Ideal.logistic (addf (F := Ideal) (addf (matmul dot_S256x1024_S1024x1024_S256x1024_1_0_0_1_n_n none x wo (constant S256x1024 .f32 0x00000000#32))
        (matmul dot_S256x1024_S1024x1024_S256x1024_1_0_0_1_n_n none h uo (constant S256x1024 .f32 0x00000000#32)))
      (broadcastTo S256x1024 bo broadcasts_S1x1024_S256x1024) (ix2 p j))
      * Ideal.tanh (k0_pay1 (F := Ideal) c (k0_pay5 bi) (k0_pay9 x h wf uf bf) (k0_pay10 x h wi ui) (ix2 p j)) = _
  rw [gate_apply, cell_pay_apply]
  rfl

end Cert.Lstm.Block

end
-- ==== Proof.LstmKernelValue.lean ====
/-
  The kernel's two result arrays after the run, entry by entry.

  The grid has sixteen points; point `t` works on rows `256·t … 256·t + 255` of the batch. Its blocks of the input,
  of the previous hidden state and of the previous cell state are those rows of the arrays; the six weight matrices
  and the three bias rows are staged whole at every point. Before the region the host casts the input, the hidden
  state and the weights to a narrower float format, which changes no extended real, and lays each bias out as a
  one-row matrix. So what point `t` writes back to the cell output is rows `256·t …` of `cellArr` of the argument
  arrays, and likewise `hiddenArr` for the hidden output; the sixteen blocks cover all 4096 rows, so each result
  array is that function everywhere.
-/
import proofs.«126118_j43894565765582_1_alg».proof.Proof.Gen.KernelIdeal.Value
import proofs.«126118_j43894565765582_1_alg».proof.Proof.LstmBlock
import Idealize.ShloMosaic.Lib.StableHlo.Run

set_option maxRecDepth 16384

noncomputable section

open scoped BigOperators

namespace Cert.Lstm.KernelValue

open Cert.KernelIdeal Cert.KernelIdeal.Gen Idealize.ShloMosaic Idealize.ShloMosaic.TcCoe Idealize.SL.Sem
open Idealize.ShloMosaic.ValueIdx Idealize.ShloMosaic.StableHlo Cert.Lstm Cert.Lstm.Block
open Idealize.ShloMosaic.Pipeline (Dat)

variable (m : (ℓ : Loc nD τ sig) → Buf (Elt Ideal) ℓ) (ρ : Dev nD → PrngReg)

/-! ## The argument arrays, as matrices of extended reals -/

abbrev argX (c : Dev nD) : Mat 4096 1024 := m ((c : Thread nD τ).loc main_arg0)
abbrev argH (c : Dev nD) : Mat 4096 1024 := m ((c : Thread nD τ).loc main_arg1)
abbrev argC (c : Dev nD) : Mat 4096 1024 := m ((c : Thread nD τ).loc main_arg2)
abbrev argWf (c : Dev nD) : Mat 1024 1024 := m ((c : Thread nD τ).loc main_arg3)
abbrev argUf (c : Dev nD) : Mat 1024 1024 := m ((c : Thread nD τ).loc main_arg4)
abbrev argBf (c : Dev nD) : Fin 1024 → EReal := vecOf (m ((c : Thread nD τ).loc main_arg5))
abbrev argWi (c : Dev nD) : Mat 1024 1024 := m ((c : Thread nD τ).loc main_arg6)
abbrev argUi (c : Dev nD) : Mat 1024 1024 := m ((c : Thread nD τ).loc main_arg7)
abbrev argBi (c : Dev nD) : Fin 1024 → EReal := vecOf (m ((c : Thread nD τ).loc main_arg8))
abbrev argWo (c : Dev nD) : Mat 1024 1024 := m ((c : Thread nD τ).loc main_arg9)
abbrev argUo (c : Dev nD) : Mat 1024 1024 := m ((c : Thread nD τ).loc main_arg10)
abbrev argBo (c : Dev nD) : Fin 1024 → EReal := vecOf (m ((c : Thread nD τ).loc main_arg11))

/-! ## The arrays the host prepares before the region -/

theorem V_v0 (c : Dev nD) : (V m c main_v0 : S4096x1024.Idx → EReal) = argX m c := by
  dsimp only [V, hostOps0]; after_results; rfl

theorem V_v1 (c : Dev nD) : (V m c main_v1 : S4096x1024.Idx → EReal) = argH m c := by
  dsimp only [V, hostOps0]; after_results; rfl

theorem V_v2 (c : Dev nD) : (V m c main_v2 : S1024x1024.Idx → EReal) = argWf m c := by
  dsimp only [V, hostOps0]; after_results; rfl

theorem V_v3 (c : Dev nD) : (V m c main_v3 : S1024x1024.Idx → EReal) = argUf m c := by
  dsimp only [V, hostOps0]; after_results; rfl

theorem V_v4 (c : Dev nD) : (V m c main_v4 : S1024x1024.Idx → EReal) = argWi m c := by
  dsimp only [V, hostOps0]; after_results; rfl

theorem V_v5 (c : Dev nD) : (V m c main_v5 : S1024x1024.Idx → EReal) = argUi m c := by
  dsimp only [V, hostOps0]; after_results; rfl

theorem V_v6 (c : Dev nD) : (V m c main_v6 : S1024x1024.Idx → EReal) = argWo m c := by
  dsimp only [V, hostOps0]; after_results; rfl

theorem V_v7 (c : Dev nD) : (V m c main_v7 : S1024x1024.Idx → EReal) = argUo m c := by
  dsimp only [V, hostOps0]; after_results; rfl

/-- A bias laid out as a one-row matrix: its entry in column `j` is the bias's entry `j`. -/
theorem V_v8 (c : Dev nD) (j : Fin 1024) : (V m c main_v8 : S1x1024.Idx → EReal) (ix2 (0 : Fin 1) j) = argBf m c j := by
  have e : (V m c main_v8 : S1x1024.Idx → EReal)
      = shapeCast S1x1024 (m ((c : Thread nD τ).loc main_arg5)) shapeCasts_S1024_S1x1024 := by
    dsimp only [V, hostOps0]; after_results; rfl
  rw [e]
  exact shapeCast_a_1a_apply _ shapeCasts_S1024_S1x1024 (0 : Fin 1) j

theorem V_v9 (c : Dev nD) (j : Fin 1024) : (V m c main_v9 : S1x1024.Idx → EReal) (ix2 (0 : Fin 1) j) = argBi m c j := by
  have e : (V m c main_v9 : S1x1024.Idx → EReal)
      = shapeCast S1x1024 (m ((c : Thread nD τ).loc main_arg8)) shapeCasts_S1024_S1x1024 := by
    dsimp only [V, hostOps0]; after_results; rfl
  rw [e]
  exact shapeCast_a_1a_apply _ shapeCasts_S1024_S1x1024 (0 : Fin 1) j

theorem V_v10 (c : Dev nD) (j : Fin 1024) : (V m c main_v10 : S1x1024.Idx → EReal) (ix2 (0 : Fin 1) j) = argBo m c j := by
  have e : (V m c main_v10 : S1x1024.Idx → EReal)
      = shapeCast S1x1024 (m ((c : Thread nD τ).loc main_arg11)) shapeCasts_S1024_S1x1024 := by
    dsimp only [V, hostOps0]; after_results; rfl
  rw [e]
  exact shapeCast_a_1a_apply _ shapeCasts_S1024_S1x1024 (0 : Fin 1) j

/-! ## Where each window's block sits at a grid point -/

/-- The printed index maps, decided over the sixteen points: the row-blocked windows (input, hidden, cell and the two
    outputs) are at block row `t`, block column 0; the weights and biases are at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

/-- Row `p` of point `t`'s block is row `256·t + p` of the batch. -/
def rowAt (t : Fin cfg0.N) (p : Fin 256) : Fin 4096 :=
  ⟨t.val * 256 + p.val, by have ht : t.val < 16 := t.isLt; have hp := p.isLt; omega⟩

/-- The input block at point `t`: rows `256·t …` of the input. -/
theorem xblk_apply (c : Dev nD) (t : Fin cfg0.N) (p : Fin 256) (q : Fin 1024) :
    (iblk m c 0 t : S256x1024.Idx → EReal) (ix2 p q) = argX m c (ix2 (rowAt t p) q) := by
  refine Eq.trans ?_ (congrFun (V_v0 m c) (ix2 (rowAt t p) q))
  show V m c main_v0 (((cfg0.win 0).blk t).view.emb (ix2 p q)) = V m c main_v0 (ix2 (rowAt t p) q)
  refine congrArg (V m c main_v0) (funext fun a => Fin.ext ?_)
  obtain ⟨⟨e0, e1⟩, -⟩ := idx_facts t
  match a with
  | ⟨0, _⟩ => show win0_0.index t (0 : Fin 2) * 256 + 1 * p.val = t.val * 256 + p.val; omega
  | ⟨1, _⟩ => show win0_0.index t (1 : Fin 2) * 1024 + 1 * q.val = q.val; omega

/-- The hidden-state block at point `t`. -/
theorem hblk_apply (c : Dev nD) (t : Fin cfg0.N) (p : Fin 256) (q : Fin 1024) :
    (iblk m c 1 t : S256x1024.Idx → EReal) (ix2 p q) = argH m c (ix2 (rowAt t p) q) := by
  refine Eq.trans ?_ (congrFun (V_v1 m c) (ix2 (rowAt t p) q))
  show V m c main_v1 (((cfg0.win 1).blk t).view.emb (ix2 p q)) = V m c main_v1 (ix2 (rowAt t p) q)
  refine congrArg (V m c main_v1) (funext fun a => Fin.ext ?_)
  obtain ⟨-, ⟨e0, e1⟩, -⟩ := idx_facts t
  match a with
  | ⟨0, _⟩ => show win0_1.index t (0 : Fin 2) * 256 + 1 * p.val = t.val * 256 + p.val; omega
  | ⟨1, _⟩ => show win0_1.index t (1 : Fin 2) * 1024 + 1 * q.val = q.val; omega

/-- The cell-state block at point `t`. -/
theorem cblk_apply (c : Dev nD) (t : Fin cfg0.N) (p : Fin 256) (q : Fin 1024) :
    (iblk m c 2 t : S256x1024.Idx → EReal) (ix2 p q) = argC m c (ix2 (rowAt t p) q) := by
  refine Eq.trans ?_ (congrFun (V_main_arg2 m c) (ix2 (rowAt t p) q))
  show V m c main_arg2 (((cfg0.win 2).blk t).view.emb (ix2 p q)) = V m c main_arg2 (ix2 (rowAt t p) q)
  refine congrArg (V m c main_arg2) (funext fun a => Fin.ext ?_)
  obtain ⟨-, -, ⟨e0, e1⟩, -⟩ := idx_facts t
  match a with
  | ⟨0, _⟩ => show win0_2.index t (0 : Fin 2) * 256 + 1 * p.val = t.val * 256 + p.val; omega
  | ⟨1, _⟩ => show win0_2.index t (1 : Fin 2) * 1024 + 1 * q.val = q.val; omega

/-- A weight matrix is staged whole at every point. -/
theorem wblk3 (c : Dev nD) (t : Fin cfg0.N) : (iblk m c 3 t : S1024x1024.Idx → EReal) = argWf m c := by
  refine Eq.trans (funext fun y => ?_) (V_v2 m c)
  show V m c main_v2 (((cfg0.win 3).blk t).view.emb y) = V m c main_v2 y
  refine congrArg (V m c main_v2) (funext fun a => Fin.ext ?_)
  obtain ⟨-, -, -, ⟨e0, e1⟩, -⟩ := idx_facts t
  match a with
  | ⟨0, _⟩ => show win0_3.index t (0 : Fin 2) * 1024 + 1 * (y 0).val = (y 0).val; omega
  | ⟨1, _⟩ => show win0_3.index t (1 : Fin 2) * 1024 + 1 * (y 1).val = (y 1).val; omega

theorem wblk4 (c : Dev nD) (t : Fin cfg0.N) : (iblk m c 4 t : S1024x1024.Idx → EReal) = argUf m c := by
  refine Eq.trans (funext fun y => ?_) (V_v3 m c)
  show V m c main_v3 (((cfg0.win 4).blk t).view.emb y) = V m c main_v3 y
  refine congrArg (V m c main_v3) (funext fun a => Fin.ext ?_)
  obtain ⟨-, -, -, -, ⟨e0, e1⟩, -⟩ := idx_facts t
  match a with
  | ⟨0, _⟩ => show win0_4.index t (0 : Fin 2) * 1024 + 1 * (y 0).val = (y 0).val; omega
  | ⟨1, _⟩ => show win0_4.index t (1 : Fin 2) * 1024 + 1 * (y 1).val = (y 1).val; omega

theorem wblk6 (c : Dev nD) (t : Fin cfg0.N) : (iblk m c 6 t : S1024x1024.Idx → EReal) = argWi m c := by
  refine Eq.trans (funext fun y => ?_) (V_v4 m c)
  show V m c main_v4 (((cfg0.win 6).blk t).view.emb y) = V m c main_v4 y
  refine congrArg (V m c main_v4) (funext fun a => Fin.ext ?_)
  obtain ⟨-, -, -, -, -, -, ⟨e0, e1⟩, -⟩ := idx_facts t
  match a with
  | ⟨0, _⟩ => show win0_6.index t (0 : Fin 2) * 1024 + 1 * (y 0).val = (y 0).val; omega
  | ⟨1, _⟩ => show win0_6.index t (1 : Fin 2) * 1024 + 1 * (y 1).val = (y 1).val; omega

theorem wblk7 (c : Dev nD) (t : Fin cfg0.N) : (iblk m c 7 t : S1024x1024.Idx → EReal) = argUi m c := by
  refine Eq.trans (funext fun y => ?_) (V_v5 m c)
  show V m c main_v5 (((cfg0.win 7).blk t).view.emb y) = V m c main_v5 y
  refine congrArg (V m c main_v5) (funext fun a => Fin.ext ?_)
  obtain ⟨-, -, -, -, -, -, -, ⟨e0, e1⟩, -⟩ := idx_facts t
  match a with
  | ⟨0, _⟩ => show win0_7.index t (0 : Fin 2) * 1024 + 1 * (y 0).val = (y 0).val; omega
  | ⟨1, _⟩ => show win0_7.index t (1 : Fin 2) * 1024 + 1 * (y 1).val = (y 1).val; omega

theorem wblk9 (c : Dev nD) (t : Fin cfg0.N) : (iblk m c 9 t : S1024x1024.Idx → EReal) = argWo m c := by
  refine Eq.trans (funext fun y => ?_) (V_v6 m c)
  show V m c main_v6 (((cfg0.win 9).blk t).view.emb y) = V m c main_v6 y
  refine congrArg (V m c main_v6) (funext fun a => Fin.ext ?_)
  obtain ⟨-, -, -, -, -, -, -, -, -, ⟨e0, e1⟩, -⟩ := idx_facts t
  match a with
  | ⟨0, _⟩ => show win0_9.index t (0 : Fin 2) * 1024 + 1 * (y 0).val = (y 0).val; omega
  | ⟨1, _⟩ => show win0_9.index t (1 : Fin 2) * 1024 + 1 * (y 1).val = (y 1).val; omega

theorem wblk10 (c : Dev nD) (t : Fin cfg0.N) : (iblk m c 10 t : S1024x1024.Idx → EReal) = argUo m c := by
  refine Eq.trans (funext fun y => ?_) (V_v7 m c)
  show V m c main_v7 (((cfg0.win 10).blk t).view.emb y) = V m c main_v7 y
  refine congrArg (V m c main_v7) (funext fun a => Fin.ext ?_)
  obtain ⟨-, -, -, -, -, -, -, -, -, -, ⟨e0, e1⟩, -⟩ := idx_facts t
  match a with
  | ⟨0, _⟩ => show win0_10.index t (0 : Fin 2) * 1024 + 1 * (y 0).val = (y 0).val; omega
  | ⟨1, _⟩ => show win0_10.index t (1 : Fin 2) * 1024 + 1 * (y 1).val = (y 1).val; omega

/-- A bias row is staged whole at every point: as a function of the column it is the bias. -/
theorem bias5 (c : Dev nD) (t : Fin cfg0.N) : rowOf (iblk m c 5 t) = argBf m c := by
  funext j
  refine Eq.trans ?_ (V_v8 m c j)
  show V m c main_v8 (((cfg0.win 5).blk t).view.emb (ix2 (0 : Fin 1) j)) = V m c main_v8 (ix2 (0 : Fin 1) j)
  refine congrArg (V m c main_v8) (funext fun a => Fin.ext ?_)
  obtain ⟨-, -, -, -, -, ⟨e0, e1⟩, -⟩ := idx_facts t
  match a with
  | ⟨0, _⟩ => show win0_5.index t (0 : Fin 2) * 1 + 1 * 0 = 0; omega
  | ⟨1, _⟩ => show win0_5.index t (1 : Fin 2) * 1024 + 1 * j.val = j.val; omega

theorem bias8 (c : Dev nD) (t : Fin cfg0.N) : rowOf (iblk m c 8 t) = argBi m c := by
  funext j
  refine Eq.trans ?_ (V_v9 m c j)
  show V m c main_v9 (((cfg0.win 8).blk t).view.emb (ix2 (0 : Fin 1) j)) = V m c main_v9 (ix2 (0 : Fin 1) j)
  refine congrArg (V m c main_v9) (funext fun a => Fin.ext ?_)
  obtain ⟨-, -, -, -, -, -, -, -, ⟨e0, e1⟩, -⟩ := idx_facts t
  match a with
  | ⟨0, _⟩ => show win0_8.index t (0 : Fin 2) * 1 + 1 * 0 = 0; omega
  | ⟨1, _⟩ => show win0_8.index t (1 : Fin 2) * 1024 + 1 * j.val = j.val; omega

theorem bias11 (c : Dev nD) (t : Fin cfg0.N) : rowOf (iblk m c 11 t) = argBo m c := by
  funext j
  refine Eq.trans ?_ (V_v10 m c j)
  show V m c main_v10 (((cfg0.win 11).blk t).view.emb (ix2 (0 : Fin 1) j)) = V m c main_v10 (ix2 (0 : Fin 1) j)
  refine congrArg (V m c main_v10) (funext fun a => Fin.ext ?_)
  obtain ⟨-, -, -, -, -, -, -, -, -, -, -, ⟨e0, e1⟩, -⟩ := idx_facts t
  match a with
  | ⟨0, _⟩ => show win0_11.index t (0 : Fin 2) * 1 + 1 * 0 = 0; omega
  | ⟨1, _⟩ => show win0_11.index t (1 : Fin 2) * 1024 + 1 * j.val = j.val; omega

/-! ## What a point writes back -/

theorem hz : (![0, 0] : Fin 2 → Nat) = fun _ => 0 := funext fun a => by fin_cases a <;> rfl

/-- Row `p`, column `j` of an output block at point `t` is row `256·t + p`, column `j` of the output array. -/
theorem emb12 (t : Fin cfg0.N) (p : Fin 256) (j : Fin 1024) :
    ((cfg0.win 12).blk t).view.emb (ix2 p j) = ix2 (rowAt t p) j := by
  funext a
  refine Fin.ext ?_
  obtain ⟨-, -, -, -, -, -, -, -, -, -, -, -, ⟨e0, e1⟩, -⟩ := idx_facts t
  match a with
  | ⟨0, _⟩ => show win0_12.index t (0 : Fin 2) * 256 + 1 * p.val = t.val * 256 + p.val; omega
  | ⟨1, _⟩ => show win0_12.index t (1 : Fin 2) * 1024 + 1 * j.val = j.val; omega

theorem emb13 (t : Fin cfg0.N) (p : Fin 256) (j : Fin 1024) :
    ((cfg0.win 13).blk t).view.emb (ix2 p j) = ix2 (rowAt t p) j := by
  funext a
  refine Fin.ext ?_
  obtain ⟨-, -, -, -, -, -, -, -, -, -, -, -, -, ⟨e0, e1⟩⟩ := idx_facts t
  match a with
  | ⟨0, _⟩ => show win0_13.index t (0 : Fin 2) * 256 + 1 * p.val = t.val * 256 + p.val; omega
  | ⟨1, _⟩ => show win0_13.index t (1 : Fin 2) * 1024 + 1 * j.val = j.val; omega

/-- WHAT POINT `t` WRITES BACK TO THE CELL OUTPUT is block `t` of the specification's cell array. -/
theorem flushed13_eq (c : Dev nD) (t : Fin cfg0.N) :
    (dats m 0 c).flushed 13 t = ((cfg0.win 13).blk t).view.read (Elt Ideal)
      (cellArr (argX m c) (argH m c) (argC m c) (argWf m c) (argUf m c) (argBf m c) (argWi m c) (argUi m c) (argBi m c)) := by
  rw [Cert.KernelIdeal.Value.flushed13]
  unfold out0_13
  rw [View.canon_unit_zero hz]
  simp only [View.ld_unit_zero (S := S256x1024) hz, View.ld_unit_zero (S := S1024x1024) hz, View.ld_unit_zero (S := S1x1024) hz]
  funext y
  obtain ⟨p, j, rfl⟩ : ∃ (p : Fin 256) (j : Fin 1024), y = ix2 p j := ⟨y 0, y 1, eq_ix2 y⟩
  show k0_pay1 (F := Ideal) (iblk m c 2 t) (k0_pay5 (iblk m c 8 t))
        (k0_pay9 (iblk m c 0 t) (iblk m c 1 t) (iblk m c 3 t) (iblk m c 4 t) (iblk m c 5 t))
        (k0_pay10 (iblk m c 0 t) (iblk m c 1 t) (iblk m c 6 t) (iblk m c 7 t)) (ix2 p j)
      = cellArr (argX m c) (argH m c) (argC m c) (argWf m c) (argUf m c) (argBf m c) (argWi m c) (argUi m c) (argBi m c)
          (((cfg0.win 13).blk t).view.emb (ix2 p j))
  refine (cell_pay_apply (iblk m c 0 t) (iblk m c 1 t) (iblk m c 2 t) (iblk m c 3 t) (iblk m c 4 t) (iblk m c 5 t)
    (iblk m c 6 t) (iblk m c 7 t) (iblk m c 8 t) p j).trans ?_
  rw [emb13, wblk3, wblk4, bias5, wblk6, wblk7, bias8]
  exact cellAt_congr _ _ _ (argX m c) (argH m c) (argC m c) _ _ _ _ _ _ p (rowAt t p)
    (xblk_apply m c t p) (hblk_apply m c t p) (cblk_apply m c t p) j

/-- WHAT POINT `t` WRITES BACK TO THE HIDDEN OUTPUT is block `t` of the specification's hidden array. -/
theorem flushed12_eq (c : Dev nD) (t : Fin cfg0.N) :
    (dats m 0 c).flushed 12 t = ((cfg0.win 12).blk t).view.read (Elt Ideal)
      (hiddenArr (argX m c) (argH m c) (argC m c) (argWf m c) (argUf m c) (argBf m c) (argWi m c) (argUi m c) (argBi m c)
        (argWo m c) (argUo m c) (argBo m c)) := by
  rw [Cert.KernelIdeal.Value.flushed12]
  unfold out0_12
  rw [View.canon_unit_zero hz]
  simp only [View.ld_unit_zero (S := S256x1024) hz, View.ld_unit_zero (S := S1024x1024) hz, View.ld_unit_zero (S := S1x1024) hz]
  funext y
  obtain ⟨p, j, rfl⟩ : ∃ (p : Fin 256) (j : Fin 1024), y = ix2 p j := ⟨y 0, y 1, eq_ix2 y⟩
  show k0_pay2 (F := Ideal) (k0_pay3 (iblk m c 0 t)) (k0_pay4 (iblk m c 1 t)) (iblk m c 2 t) (k0_pay5 (iblk m c 8 t))
        (k0_pay6 (iblk m c 9 t)) (k0_pay7 (iblk m c 10 t)) (k0_pay8 (iblk m c 11 t))
        (k0_pay9 (iblk m c 0 t) (iblk m c 1 t) (iblk m c 3 t) (iblk m c 4 t) (iblk m c 5 t))
        (k0_pay10 (iblk m c 0 t) (iblk m c 1 t) (iblk m c 6 t) (iblk m c 7 t)) (ix2 p j)
      = hiddenArr (argX m c) (argH m c) (argC m c) (argWf m c) (argUf m c) (argBf m c) (argWi m c) (argUi m c) (argBi m c)
          (argWo m c) (argUo m c) (argBo m c) (((cfg0.win 12).blk t).view.emb (ix2 p j))
  refine (hidden_pay_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) p j).trans ?_
  rw [emb12, wblk3, wblk4, bias5, wblk6, wblk7, bias8, wblk9, wblk10, bias11]
  exact hiddenAt_congr _ _ _ (argX m c) (argH m c) (argC m c) _ _ _ _ _ _ _ _ _ p (rowAt t p)
    (xblk_apply m c t p) (hblk_apply m c t p) (cblk_apply m c t p) j

/-! ## The sixteen blocks cover the output arrays -/

/-- An index of the array is in point `t`'s block iff each coordinate is in the block's range on its axis. -/
theorem mem_blk12 (t : Fin cfg0.N) (i : S4096x1024.Idx) :
    i ∈ ((cfg0.win 12).blk t).view.set ↔ ∀ a : Fin 2, win0_12.index t a * S256x1024.size a ≤ (i a).val
      ∧ (i a).val < win0_12.index t a * S256x1024.size a + S256x1024.size a := by
  show i ∈ ((View.whole main_v11_0).slice (win0_12.rect t)).set ↔ _
  rw [View.set_slice_whole, Rect.mem_set_unit]
  exact Iff.rfl

theorem mem_blk13 (t : Fin cfg0.N) (i : S4096x1024.Idx) :
    i ∈ ((cfg0.win 13).blk t).view.set ↔ ∀ a : Fin 2, win0_13.index t a * S256x1024.size a ≤ (i a).val
      ∧ (i a).val < win0_13.index t a * S256x1024.size a + S256x1024.size a := by
  show i ∈ ((View.whole main_v11_1).slice (win0_13.rect t)).set ↔ _
  rw [View.set_slice_whole, Rect.mem_set_unit]
  exact Iff.rfl

/-- The point whose block holds row `r`: `r / 256`. -/
def pointOf (i : S4096x1024.Idx) : Fin cfg0.N :=
  ⟨(i 0).val / 256, by have hi : (i 0).val < 4096 := (i 0).isLt; show (i 0).val / 256 < 16; omega⟩

theorem cover12 (i : S4096x1024.Idx) :
    ∃ t : Fin cfg0.N, (cfg0.win 12).flush t = true ∧ i ∈ ((cfg0.win 12).blk t).view.set := by
  have hi0 : (i 0).val < 4096 := (i 0).isLt
  have hi1 : (i 1).val < 1024 := (i 1).isLt
  refine ⟨pointOf i, flush0_12 _, ?_⟩
  rw [mem_blk12]
  obtain ⟨-, -, -, -, -, -, -, -, -, -, -, -, ⟨e0, e1⟩, -⟩ := idx_facts (pointOf i)
  have ht : (pointOf i).val = (i 0).val / 256 := rfl
  intro a
  match a with
  | ⟨0, _⟩ =>
    show win0_12.index (pointOf i) (0 : Fin 2) * 256 ≤ (i 0).val ∧ (i 0).val < win0_12.index (pointOf i) (0 : Fin 2) * 256 + 256
    omega
  | ⟨1, _⟩ =>
    show win0_12.index (pointOf i) (1 : Fin 2) * 1024 ≤ (i 1).val ∧ (i 1).val < win0_12.index (pointOf i) (1 : Fin 2) * 1024 + 1024
    omega

theorem cover13 (i : S4096x1024.Idx) :
    ∃ t : Fin cfg0.N, (cfg0.win 13).flush t = true ∧ i ∈ ((cfg0.win 13).blk t).view.set := by
  have hi0 : (i 0).val < 4096 := (i 0).isLt
  have hi1 : (i 1).val < 1024 := (i 1).isLt
  refine ⟨pointOf i, flush0_13 _, ?_⟩
  rw [mem_blk13]
  obtain ⟨-, -, -, -, -, -, -, -, -, -, -, -, -, ⟨e0, e1⟩⟩ := idx_facts (pointOf i)
  have ht : (pointOf i).val = (i 0).val / 256 := rfl
  intro a
  match a with
  | ⟨0, _⟩ =>
    show win0_13.index (pointOf i) (0 : Fin 2) * 256 ≤ (i 0).val ∧ (i 0).val < win0_13.index (pointOf i) (0 : Fin 2) * 256 + 256
    omega
  | ⟨1, _⟩ =>
    show win0_13.index (pointOf i) (1 : Fin 2) * 1024 ≤ (i 1).val ∧ (i 1).val < win0_13.index (pointOf i) (1 : Fin 2) * 1024 + 1024
    omega

/-! ## The result arrays after the run -/

theorem final12 (c : Dev nD) :
    (dats m 0 c).arrAt 12 cfg0.N
      = hiddenArr (argX m c) (argH m c) (argC m c) (argWf m c) (argUf m c) (argBf m c) (argWi m c) (argUi m c) (argBi m c)
          (argWo m c) (argUo m c) (argBo m c) :=
  (dats m 0 c).arrAt_eq_of_cover 12 _ (fun t _ => flushed12_eq m c t) cover12

theorem final13 (c : Dev nD) :
    (dats m 0 c).arrAt 13 cfg0.N
      = cellArr (argX m c) (argH m c) (argC m c) (argWf m c) (argUf m c) (argBf m c) (argWi m c) (argUi m c) (argBi m c) :=
  (dats m 0 c).arrAt_eq_of_cover 13 _ (fun t _ => flushed13_eq m c t) cover13

/-- THE KERNEL'S RUN: every weakly fair execution ends with the hidden output at the specification's hidden array and
    the cell output at its cell array, of the argument arrays, which are unchanged. -/
theorem run : θ_run defs (onTc (τ := τ) (main (F := Ideal))) ⟨m, fun _ => 0, ρ⟩ fun r => ∀ c : Dev nD,
      r.2.mem ((c : Thread nD τ).loc main_v11_0)
        = hiddenArr (argX m c) (argH m c) (argC m c) (argWf m c) (argUf m c) (argBf m c) (argWi m c) (argUi m c) (argBi m c)
            (argWo m c) (argUo m c) (argBo m c)
      ∧ r.2.mem ((c : Thread nD τ).loc main_v11_1)
        = cellArr (argX m c) (argH m c) (argC m c) (argWf m c) (argUf m c) (argBf m c) (argWi m c) (argUi m c) (argBi m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final12 m c), (h c).2.1.trans (final13 m c), (h c).2.2⟩)
    (Cert.KernelIdeal.Value.run_blocks m ρ)

end Cert.Lstm.KernelValue

end
-- ==== Proof.LstmRefValue.lean ====
/-
  The reference's two results, entry by entry.

  The reference writes each gate as `1 / (1 + exp (-pre))`, which on the extended reals is the logistic function of
  `pre` at every value, the infinities included; its pre-activation is two matrix products added, plus the bias
  broadcast over the rows: `gatePre` of the whole arrays. Its new cell entry is `f · c + f · i` with the forget gate
  `f` computed twice; a logistic factor distributes over every sum, so this is `f · (c + i)`, the cell entry of the
  specification. Its new hidden entry is the output gate times `tanh` of that.
-/
import proofs.«126118_j43894565765582_1_alg».proof.Proof.Gen.ReferenceIdeal.Read
import proofs.«126118_j43894565765582_1_alg».proof.Proof.LibPlainDotSum
import proofs.«126118_j43894565765582_1_alg».proof.Proof.LstmSpec

noncomputable section

open scoped BigOperators

namespace Cert.Lstm.RefValue

open Cert.ReferenceIdeal Cert.ReferenceIdeal.Gen Idealize.ShloMosaic Idealize.ShloMosaic.ValueIdx Cert.Lstm

/-- The constant one, broadcast to every entry. -/
theorem one_apply (i : S4096x1024.Idx) :
    broadcastInDim S4096x1024 ![] bcast_S_S4096x1024 (constant (F := Ideal) S_ .f32 0x3F800000#32) i = 1 :=
  (Read.val_main_v8_apply (F := Ideal) i).trans (IdealRules.sign_bit.ideal_onePat .f32)

/-- A bias vector laid out as one row and broadcast over the rows: at row `r`, column `j` its entry `j`. -/
theorem bias_apply (b : FVec Ideal S1024 .f32) (r : Fin 4096) (j : Fin 1024) :
    broadcastInDim S4096x1024 ![0, 1] bcast_S1x1024_S4096x1024_0_1 (broadcastInDim S1x1024 ![1] bcast_S1024_S1x1024_1 b) (ix2 r j)
      = vecOf b j :=
  (Read.val_main_v4_apply (F := Ideal) b (ix2 r j)).trans
    ((Read.val_main_v3_apply (F := Ideal) b _).trans
      (congrArg b (funext fun a => Fin.ext (match a with | ⟨0, _⟩ => rfl))))

/-- A matrix product of the reference, at row `r`, column `j`. -/
theorem dot_apply (l : FVec Ideal S4096x1024 .f32) (w : FVec Ideal S1024x1024 .f32) (r : Fin 4096) (j : Fin 1024) :
    Host.dotGeneral dot_S4096x1024_S1024x1024_S4096x1024_1_0_0_1_n_n none l w (ix2 r j)
      = ∑ q : Fin 1024, l (ix2 r q) * w (ix2 q j) :=
  Cert.LibPlainDotSum.hostDot_apply dot_S4096x1024_S1024x1024_S4096x1024_1_0_0_1_n_n rfl rfl rfl rfl rfl rfl none l w r j

/-- A gate as the reference spells it: one over one plus the exponential of minus the pre-activation. -/
abbrev refGate (X H : FVec Ideal S4096x1024 .f32) (W U : FVec Ideal S1024x1024 .f32) (b : FVec Ideal S1024 .f32) :
    FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32))
      (Host.exp (Host.negf (addf
        (addf (Host.dotGeneral dot_S4096x1024_S1024x1024_S4096x1024_1_0_0_1_n_n none X W)
          (Host.dotGeneral dot_S4096x1024_S1024x1024_S4096x1024_1_0_0_1_n_n none H U))
        (broadcastInDim S4096x1024 ![0, 1] bcast_S1x1024_S4096x1024_0_1 (broadcastInDim S1x1024 ![1] bcast_S1024_S1x1024_1 b))))))

/-- It is the logistic function of the gate's pre-activation. -/
theorem gate_apply (X H : FVec Ideal S4096x1024 .f32) (W U : FVec Ideal S1024x1024 .f32) (b : FVec Ideal S1024 .f32)
    (r : Fin 4096) (j : Fin 1024) :
    refGate X H W U b (ix2 r j) = Ideal.logistic (gatePre X H W U (vecOf b) r j) := by
  show Ideal.div (broadcastInDim S4096x1024 ![] bcast_S_S4096x1024 (constant (F := Ideal) S_ .f32 0x3F800000#32) (ix2 r j))
      (broadcastInDim S4096x1024 ![] bcast_S_S4096x1024 (constant (F := Ideal) S_ .f32 0x3F800000#32) (ix2 r j)
        + Ideal.exp (-((Host.dotGeneral dot_S4096x1024_S1024x1024_S4096x1024_1_0_0_1_n_n none X W (ix2 r j)
            + Host.dotGeneral dot_S4096x1024_S1024x1024_S4096x1024_1_0_0_1_n_n none H U (ix2 r j))
          + broadcastInDim S4096x1024 ![0, 1] bcast_S1x1024_S4096x1024_0_1 (broadcastInDim S1x1024 ![1] bcast_S1024_S1x1024_1 b) (ix2 r j)))) = _
  rw [one_apply, dot_apply, dot_apply, bias_apply]
  rfl

/-- THE REFERENCE'S CELL RESULT is the specification's cell array. -/
theorem cell_eq (X H C : FVec Ideal S4096x1024 .f32) (Wf Uf : FVec Ideal S1024x1024 .f32) (bf : FVec Ideal S1024 .f32)
    (Wi Ui : FVec Ideal S1024x1024 .f32) (bi : FVec Ideal S1024 .f32) :
    addf (mulf (refGate X H Wf Uf bf) C) (mulf (refGate X H Wf Uf bf) (refGate X H Wi Ui bi))
      = cellArr X H C Wf Uf (vecOf bf) Wi Ui (vecOf bi) := by
  funext y
  obtain ⟨r, j, rfl⟩ : ∃ (r : Fin 4096) (j : Fin 1024), y = ix2 r j := ⟨y 0, y 1, eq_ix2 y⟩
  show refGate X H Wf Uf bf (ix2 r j) * C (ix2 r j) + refGate X H Wf Uf bf (ix2 r j) * refGate X H Wi Ui bi (ix2 r j)
      = cellAt X H C Wf Uf (vecOf bf) Wi Ui (vecOf bi) r j
  rw [gate_apply, gate_apply]
  exact cellAt_eq_sum X H C Wf Uf (vecOf bf) Wi Ui (vecOf bi) r j

/-- THE REFERENCE'S HIDDEN RESULT is the specification's hidden array. -/
theorem hidden_eq (X H C : FVec Ideal S4096x1024 .f32) (Wf Uf : FVec Ideal S1024x1024 .f32) (bf : FVec Ideal S1024 .f32)
    (Wi Ui : FVec Ideal S1024x1024 .f32) (bi : FVec Ideal S1024 .f32)
    (Wo Uo : FVec Ideal S1024x1024 .f32) (bo : FVec Ideal S1024 .f32) :
    mulf (refGate X H Wo Uo bo)
        (Host.tanh (addf (mulf (refGate X H Wf Uf bf) C) (mulf (refGate X H Wf Uf bf) (refGate X H Wi Ui bi))))
      = hiddenArr X H C Wf Uf (vecOf bf) Wi Ui (vecOf bi) Wo Uo (vecOf bo) := by
  rw [cell_eq]
  funext y
  obtain ⟨r, j, rfl⟩ : ∃ (r : Fin 4096) (j : Fin 1024), y = ix2 r j := ⟨y 0, y 1, eq_ix2 y⟩
  show refGate X H Wo Uo bo (ix2 r j) * Ideal.tanh (cellAt X H C Wf Uf (vecOf bf) Wi Ui (vecOf bi) r j)
      = hiddenAt X H C Wf Uf (vecOf bf) Wi Ui (vecOf bi) Wo Uo (vecOf bo) r j
  rw [gate_apply]
  rfl

end Cert.Lstm.RefValue

end
-- ==== Proof.lean ====
/-
  One step of a recurrent cell with three logistic gates, computed block by block on the device, against the same
  step written with whole-array operations.

  Both programs read a batch of 4096 rows — the input `x`, the previous hidden state `h`, the previous cell state `c`,
  each 1024 wide — six 1024 × 1024 weight matrices and three biases. A gate's pre-activation at row `r`, column `j` is
  `(∑ q, x(r, q) · W(q, j)) + (∑ q, h(r, q) · U(q, j)) + b(j)`; the forget, input and output gates are the logistic
  function `σ` of their pre-activations. The candidate cell value reuses the forget gate's pre-activation and `σ`, so
  it equals the forget gate `f`.

  The device program tiles the batch into sixteen blocks of 256 rows, computes each product as a block product into a
  zero accumulator over operands cast to a narrower float format (no change of value on the extended reals), applies
  `σ` as one operation, and writes the new cell entry as `f · (c + i)`. The whole-array program spells `σ` as
  `1 / (1 + exp (-·))` — the same function of every extended real — and writes the new cell entry as `f · c + f · i`.
  The two agree because `σ` takes values in `[0, 1]`: a nonnegative factor other than `⊤` distributes over any sum of
  extended reals, so no finiteness of the inputs is used. The new hidden entry is `o · tanh` of the new cell entry on
  both sides.

  The three runs (termination, no fault, arguments unchanged) are the generated frame runs; the device program read
  at the exact values is the program's own text, so there is nothing to preserve beyond that.
-/
import proofs.«126118_j43894565765582_1_alg».proof.Defs
import proofs.«126118_j43894565765582_1_alg».proof.Proof.Gen.Kernel
import proofs.«126118_j43894565765582_1_alg».proof.Proof.Gen.Kernel.Skeleton
import proofs.«126118_j43894565765582_1_alg».proof.Proof.Gen.Kernel.Launch
import proofs.«126118_j43894565765582_1_alg».proof.Proof.Gen.Kernel.Points
import proofs.«126118_j43894565765582_1_alg».proof.Proof.Gen.Kernel.Frame
import proofs.«126118_j43894565765582_1_alg».proof.Proof.Gen.KernelIdeal
import proofs.«126118_j43894565765582_1_alg».proof.Proof.Gen.KernelIdeal.Skeleton
import proofs.«126118_j43894565765582_1_alg».proof.Proof.Gen.KernelIdeal.Launch
import proofs.«126118_j43894565765582_1_alg».proof.Proof.Gen.KernelIdeal.Points
import proofs.«126118_j43894565765582_1_alg».proof.Proof.Gen.KernelIdeal.Frame
import proofs.«126118_j43894565765582_1_alg».proof.Proof.Gen.ReferenceIdeal
import proofs.«126118_j43894565765582_1_alg».proof.Proof.Gen.Pre_finite_inputs
import proofs.«126118_j43894565765582_1_alg».proof.Proof.Gen.KernelIdeal.Value
import proofs.«126118_j43894565765582_1_alg».proof.Proof.Gen.ReferenceIdeal.Run
import proofs.«126118_j43894565765582_1_alg».proof.Proof.Gen.ReferenceIdeal.Read
import proofs.«126118_j43894565765582_1_alg».proof.Proof.LstmKernelValue
import proofs.«126118_j43894565765582_1_alg».proof.Proof.LstmRefValue
import Idealize.ShloMosaic.Adequacy
import Idealize.ShloMosaic.Init

noncomputable section

namespace Cert.Proof

open Idealize.ShloMosaic Idealize.ShloMosaic.TcCoe Idealize.SL.Sem

/-- The device program as printed runs to the end, faults nowhere and leaves its arguments as they were. -/
theorem frame_k : Cert.frame_Kernel := fun m ρ _ => Cert.Kernel.Gen.frame m ρ

/-- So does the device program read at the exact values. -/
theorem frame_ki : Cert.frame_KernelIdeal := fun m ρ _ => Cert.KernelIdeal.Gen.frame m ρ

/-- So does the whole-array program: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the hidden result at `hiddenArr` and the cell
    result at `cellArr` of the arguments: the device side by its blocks, the whole-array side by distributing the
    forget gate over the sum. -/
theorem algebraic : Cert.algebraic_KernelIdeal_ReferenceIdeal := by
  intro m ρ m' ρ' _ hagree
  refine ⟨_, _, Cert.Lstm.KernelValue.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11⟩ := hagree c
  refine ⟨(h c).1.trans ?_, (h c).2.1.trans ?_, (h c).2.2⟩
  · rw [a0, a1, a2, a3, a4, a5, a6, a7, a8, a9, a10, a11]
    exact Cert.Lstm.RefValue.hidden_eq _ _ _ _ _ _ _ _ _ _ _ _
  · rw [a0, a1, a2, a3, a4, a5, a6, a7, a8]
    exact Cert.Lstm.RefValue.cell_eq _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
